-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S12288x4096 : Shape := ⟨2, ![12288, 4096]⟩
abbrev S96x32 : Shape := ⟨2, ![96, 32]⟩
abbrev S12288 : Shape := ⟨1, ![12288]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S96x32 : S_.BroadcastsInDim S96x32 (![] : Fin 0 → Fin S96x32.rank)
  reducesTo_S96x32_S_d0_1 : S96x32.ReducesTo [0, 1] S_
  bcast_S_S12288 : S_.BroadcastsInDim S12288 (![] : Fin 0 → Fin S12288.rank)
  reducesTo_S12288_S_d0 : S12288.ReducesTo [0] S_

variable [Facts]

def fn {F : FTy → Type} [FloatOps F] (main_arg0 : FVec F S4x2048x4096 .f32) (main_arg1 : IVec S12288x4096 32) (main_arg2 : FVec F S96x32 .f32) (main_arg3 : FVec F S12288 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S96x32 .f32 := Host.absf main_arg2
  let main_cst_0 : FVec F S_ .f32 := constant S_ .f32 0x7F800000#32
  let main_v5 : FVec F S96x32 .f32 := broadcastInDim S96x32 ![] bcast_S_S96x32 main_cst_0
  let main_v6 : IVec S96x32 1 := cmpf .olt main_v4 main_v5
  let main_c_1 : IVec S_ 1 := constantI S_ 1 1#1
  let main_v7 : IVec S_ 1 := (fun x v => Host.reduce IntOp.andi x v reducesTo_S96x32_S_d0_1 h_S_) main_v6 main_c_1
  let main_v8 : IVec S_ 1 := andi main_v3 main_v7
  let main_v9 : FVec F S12288 .f32 := Host.absf main_arg3
  let main_cst_2 : FVec F S_ .f32 := constant S_ .f32 0x7F800000#32
  let main_v10 : FVec F S12288 .f32 := broadcastInDim S12288 ![] bcast_S_S12288 main_cst_2
  let main_v11 : IVec S12288 1 := cmpf .olt main_v9 main_v10
  let main_c_3 : IVec S_ 1 := constantI S_ 1 1#1
  let main_v12 : IVec S_ 1 := (fun x v => Host.reduce IntOp.andi x v reducesTo_S12288_S_d0 h_S_) main_v11 main_c_3
  let main_v13 : IVec S_ 1 := andi main_v8 main_v12
  main_v13
-- ==== Kernel.lean ====
abbrev S4x2048x4096 : Shape := ⟨3, ![4, 2048, 4096]⟩
abbrev S12288x4096 : Shape := ⟨2, ![12288, 4096]⟩
abbrev S96x32 : Shape := ⟨2, ![96, 32]⟩
abbrev S12288 : Shape := ⟨1, ![12288]⟩
abbrev S8192x4096 : Shape := ⟨2, ![8192, 4096]⟩
abbrev S8192x32x128 : Shape := ⟨3, ![8192, 32, 128]⟩
abbrev S_ : Shape := ⟨0, ![]⟩
abbrev S8192x32 : Shape := ⟨2, ![8192, 32]⟩
abbrev S8192x32x1 : Shape := ⟨3, ![8192, 32, 1]⟩
abbrev S96x128x32x128 : Shape := ⟨4, ![96, 128, 32, 128]⟩
abbrev S96x1x32x1 : Shape := ⟨4, ![96, 1, 32, 1]⟩
abbrev S8192x12288 : Shape := ⟨2, ![8192, 12288]⟩
abbrev S2048x4096 : Shape := ⟨2, ![2048, 4096]⟩
abbrev S512x4096 : Shape := ⟨2, ![512, 4096]⟩
abbrev S512 : Shape := ⟨1, ![512]⟩
abbrev S2048x512 : Shape := ⟨2, ![2048, 512]⟩
abbrev S1x512 : Shape := ⟨2, ![1, 512]⟩
abbrev S4x2048x12288 : Shape := ⟨3, ![4, 2048, 12288]⟩

abbrev nBuf : Space → Nat
  | .hbm => 40
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S12288x4096, .i32⟩
  | .hbm, ⟨2, _⟩ => ⟨S96x32, .f32⟩
  | .hbm, ⟨3, _⟩ => ⟨S12288, .f32⟩
  | .hbm, ⟨4, _⟩ => ⟨S8192x4096, .f32⟩
  | .hbm, ⟨5, _⟩ => ⟨S8192x32x128, .f32⟩
  | .hbm, ⟨6, _⟩ => ⟨S8192x32x128, .f32⟩
  | .hbm, ⟨7, _⟩ => ⟨S_, .f32⟩
  | .hbm, ⟨8, _⟩ => ⟨S8192x32, .f32⟩
  | .hbm, ⟨9, _⟩ => ⟨S8192x32x1, .f32⟩
  | .hbm, ⟨10, _⟩ => ⟨S_, .f32⟩
  | .hbm, ⟨11, _⟩ => ⟨S8192x32x1, .f32⟩
  | .hbm, ⟨12, _⟩ => ⟨S8192x32x1, .f32⟩
  | .hbm, ⟨13, _⟩ => ⟨S_, .f32⟩
  | .hbm, ⟨14, _⟩ => ⟨S8192x32x1, .f32⟩
  | .hbm, ⟨15, _⟩ => ⟨S8192x32x1, .f32⟩
  | .hbm, ⟨16, _⟩ => ⟨S8192x32x128, .f32⟩
  | .hbm, ⟨17, _⟩ => ⟨S8192x32x128, .f32⟩
  | .hbm, ⟨18, _⟩ => ⟨S8192x32x128, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8192x32x128, .f32⟩
  | .hbm, ⟨23, _⟩ => ⟨S8192x32x128, .f32⟩
  | .hbm, ⟨24, _⟩ => ⟨S_, .f32⟩
  | .hbm, ⟨25, _⟩ => ⟨S8192x32x128, .f32⟩
  | .hbm, ⟨26, _⟩ => ⟨S8192x32x128, .f32⟩
  | .hbm, ⟨27, _⟩ => ⟨S8192x32x128, .f32⟩
  | .hbm, ⟨28, _⟩ => ⟨S8192x32x128, .f32⟩
  | .hbm, ⟨29, _⟩ => ⟨S8192x4096, .f32⟩
  | .hbm, ⟨30, _⟩ => ⟨S8192x4096, .bf16⟩
  | .hbm, ⟨31, _⟩ => ⟨S12288x4096, .f32⟩
  | .hbm, ⟨32, _⟩ => ⟨S96x128x32x128, .f32⟩
  | .hbm, ⟨33, _⟩ => ⟨S96x1x32x1, .f32⟩
  | .hbm, ⟨34, _⟩ => ⟨S96x128x32x128, .f32⟩
  | .hbm, ⟨35, _⟩ => ⟨S96x128x32x128, .f32⟩
  | .hbm, ⟨36, _⟩ => ⟨S12288x4096, .f32⟩
  | .hbm, ⟨37, _⟩ => ⟨S12288x4096, .bf16⟩
  | .hbm, ⟨38, _⟩ => ⟨S8192x12288, .f32⟩
  | .hbm, ⟨39, _⟩ => ⟨S4x2048x12288, .f32⟩
  | .local _ .vmem, ⟨0, _⟩ => ⟨S2048x4096, .bf16⟩
  | .local _ .vmem, ⟨1, _⟩ => ⟨S512x4096, .bf16⟩
  | .local _ .vmem, ⟨2, _⟩ => ⟨S512x4096, .bf16⟩
  | .local _ .vmem, ⟨3, _⟩ => ⟨S512, .f32⟩
  | .local _ .vmem, ⟨4, _⟩ => ⟨S512, .f32⟩
  | .local _ .vmem, ⟨5, _⟩ => ⟨S2048x512, .f32⟩
  | .local _ .vmem, ⟨6, _⟩ => ⟨S2048x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_cst_3 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x2048x4096_S8192x4096 : S4x2048x4096.ShapeCasts S8192x4096
  shapeCasts_S8192x4096_S8192x32x128 : S8192x4096.ShapeCasts S8192x32x128
  reducesTo_S8192x32x128_S8192x32_d2 : S8192x32x128.ReducesTo [2] S8192x32
  h_S_ : 0 < S_.numel
  bcast_S8192x32_S8192x32x1_0_1 : S8192x32.BroadcastsInDim S8192x32x1 (![0, 1] : Fin 2 → Fin S8192x32x1.rank)
  bcast_S_S8192x32x1 : S_.BroadcastsInDim S8192x32x1 (![] : Fin 0 → Fin S8192x32x1.rank)
  bcast_S8192x32x1_S8192x32x128_0_1_2 : S8192x32x1.BroadcastsInDim S8192x32x128 (![0, 1, 2] : Fin 3 → Fin S8192x32x128.rank)
  bcast_S_S8192x32x128 : S_.BroadcastsInDim S8192x32x128 (![] : Fin 0 → Fin S8192x32x128.rank)
  shapeCasts_S8192x32x128_S8192x4096 : S8192x32x128.ShapeCasts S8192x4096
  bitsLt_bf16_f32 : FTy.bits .bf16 < FTy.bits .f32
  shapeCasts_S12288x4096_S96x128x32x128 : S12288x4096.ShapeCasts S96x128x32x128
  bcast_S96x32_S96x1x32x1_0_2 : S96x32.BroadcastsInDim S96x1x32x1 (![0, 2] : Fin 2 → Fin S96x1x32x1.rank)
  bcast_S96x1x32x1_S96x128x32x128_0_1_2_3 : S96x1x32x1.BroadcastsInDim S96x128x32x128 (![0, 1, 2, 3] : Fin 4 → Fin S96x128x32x128.rank)
  shapeCasts_S96x128x32x128_S12288x4096 : S96x128x32x128.ShapeCasts S12288x4096
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  shapeCasts_S8192x12288_S4x2048x12288 : S8192x12288.ShapeCasts S4x2048x12288
  dot_S2048x4096_S512x4096_S2048x512_1_1_0_0_n_n_wf : DotDims.WF S2048x4096 S512x4096 S2048x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x4096.size a ≤ S8192x4096.size a
  hwx0_0 : ∀ i : grid0.Coords, EltTy.bits .bf16 = 32 ∨ (Rect.block (s := S8192x4096) S2048x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S12288x4096.size a
  hwx0_1 : ∀ i : grid0.Coords, EltTy.bits .bf16 = 32 ∨ (Rect.block (s := S12288x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S12288.size a
  hwx0_2 : ∀ i : grid0.Coords, EltTy.bits .f32 = 32 ∨ (Rect.block (s := S12288) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S8192x12288.size a
  hwx0_3 : ∀ i : grid0.Coords, EltTy.bits .f32 = 32 ∨ (Rect.block (s := S8192x12288) S2048x512.size (cc0_transform_3 i) (hinb0_3 i)).WholeWords (EltTy.packing .f32)

variable [Facts₀]

def dot_S2048x4096_S512x4096_S2048x512_1_1_0_0_n_n : DotDims S2048x4096 S512x4096 S2048x512 where
  lhsContracting := [1]
  rhsContracting := [1]
  lhsNonContracting := [0]
  rhsNonContracting := [0]
  lhsBatch := []
  rhsBatch := []
  wf := dot_S2048x4096_S512x4096_S2048x512_1_1_0_0_n_n_wf

abbrev win0_0 : Pipeline.Window sig grid0 :=
  Pipeline.Window.ofSpec (Memref.whole main_v16) S2048x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v23) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S12288x4096 : Shape := ⟨2, ![12288, 4096]⟩
abbrev S96x32 : Shape := ⟨2, ![96, 32]⟩
abbrev S12288 : Shape := ⟨1, ![12288]⟩
abbrev S4x2048x32x128 : Shape := ⟨4, ![4, 2048, 32, 128]⟩
abbrev S_ : Shape := ⟨0, ![]⟩
abbrev S4x2048x32 : Shape := ⟨3, ![4, 2048, 32]⟩
abbrev S4x2048x32x1 : Shape := ⟨4, ![4, 2048, 32, 1]⟩
abbrev S96x128x32x128 : Shape := ⟨4, ![96, 128, 32, 128]⟩
abbrev S96x1x32x1 : Shape := ⟨4, ![96, 1, 32, 1]⟩
abbrev S4x2048x12288 : Shape := ⟨3, ![4, 2048, 12288]⟩
abbrev S1x1x12288 : Shape := ⟨3, ![1, 1, 12288]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S12288x4096, .i32⟩
  | .hbm, ⟨2, _⟩ => ⟨S96x32, .f32⟩
  | .hbm, ⟨3, _⟩ => ⟨S12288, .f32⟩
  | .hbm, ⟨4, _⟩ => ⟨S4x2048x32x128, .f32⟩
  | .hbm, ⟨5, _⟩ => ⟨S4x2048x32x128, .f32⟩
  | .hbm, ⟨6, _⟩ => ⟨S_, .f32⟩
  | .hbm, ⟨7, _⟩ => ⟨S4x2048x32, .f32⟩
  | .hbm, ⟨8, _⟩ => ⟨S_, .f32⟩
  | .hbm, ⟨9, _⟩ => ⟨S4x2048x32, .f32⟩
  | .hbm, ⟨10, _⟩ => ⟨S4x2048x32, .f32⟩
  | .hbm, ⟨11, _⟩ => ⟨S_, .f32⟩
  | .hbm, ⟨12, _⟩ => ⟨S4x2048x32, .f32⟩
  | .hbm, ⟨13, _⟩ => ⟨S4x2048x32, .f32⟩
  | .hbm, ⟨14, _⟩ => ⟨S4x2048x32x1, .f32⟩
  | .hbm, ⟨15, _⟩ => ⟨S4x2048x32x128, .f32⟩
  | .hbm, ⟨16, _⟩ => ⟨S4x2048x32x128, .f32⟩
  | .hbm, ⟨17, _⟩ => ⟨S4x2048x32x128, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4x2048x32x128, .f32⟩
  | .hbm, ⟨22, _⟩ => ⟨S4x2048x32x128, .f32⟩
  | .hbm, ⟨23, _⟩ => ⟨S_, .f32⟩
  | .hbm, ⟨24, _⟩ => ⟨S4x2048x32x128, .f32⟩
  | .hbm, ⟨25, _⟩ => ⟨S4x2048x32x128, .f32⟩
  | .hbm, ⟨26, _⟩ => ⟨S4x2048x32x1, .f32⟩
  | .hbm, ⟨27, _⟩ => ⟨S4x2048x32x128, .f32⟩
  | .hbm, ⟨28, _⟩ => ⟨S4x2048x32x128, .f32⟩
  | .hbm, ⟨29, _⟩ => ⟨S4x2048x4096, .f32⟩
  | .hbm, ⟨30, _⟩ => ⟨S12288x4096, .f32⟩
  | .hbm, ⟨31, _⟩ => ⟨S96x128x32x128, .f32⟩
  | .hbm, ⟨32, _⟩ => ⟨S96x1x32x1, .f32⟩
  | .hbm, ⟨33, _⟩ => ⟨S96x128x32x128, .f32⟩
  | .hbm, ⟨34, _⟩ => ⟨S96x128x32x128, .f32⟩
  | .hbm, ⟨35, _⟩ => ⟨S12288x4096, .f32⟩
  | .hbm, ⟨36, _⟩ => ⟨S4x2048x12288, .f32⟩
  | .hbm, ⟨37, _⟩ => ⟨S1x1x12288, .f32⟩
  | .hbm, ⟨38, _⟩ => ⟨S4x2048x12288, .f32⟩
  | .hbm, ⟨39, _⟩ => ⟨S4x2048x12288, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  shapeCasts_S4x2048x4096_S4x2048x32x128 : S4x2048x4096.ShapeCasts S4x2048x32x128
  reducesTo_S4x2048x32x128_S4x2048x32_d3 : S4x2048x32x128.ReducesTo [3] S4x2048x32
  h_S_ : 0 < S_.numel
  bcast_S_S4x2048x32 : S_.BroadcastsInDim S4x2048x32 (![] : Fin 0 → Fin S4x2048x32.rank)
  bcast_S4x2048x32_S4x2048x32x1_0_1_2 : S4x2048x32.BroadcastsInDim S4x2048x32x1 (![0, 1, 2] : Fin 3 → Fin S4x2048x32x1.rank)
  bcast_S4x2048x32x1_S4x2048x32x128_0_1_2_3 : S4x2048x32x1.BroadcastsInDim S4x2048x32x128 (![0, 1, 2, 3] : Fin 4 → Fin S4x2048x32x128.rank)
  bcast_S_S4x2048x32x128 : S_.BroadcastsInDim S4x2048x32x128 (![] : Fin 0 → Fin S4x2048x32x128.rank)
  shapeCasts_S4x2048x32x128_S4x2048x4096 : S4x2048x32x128.ShapeCasts S4x2048x4096
  shapeCasts_S12288x4096_S96x128x32x128 : S12288x4096.ShapeCasts S96x128x32x128
  bcast_S96x32_S96x1x32x1_0_2 : S96x32.BroadcastsInDim S96x1x32x1 (![0, 2] : Fin 2 → Fin S96x1x32x1.rank)
  bcast_S96x1x32x1_S96x128x32x128_0_1_2_3 : S96x1x32x1.BroadcastsInDim S96x128x32x128 (![0, 1, 2, 3] : Fin 4 → Fin S96x128x32x128.rank)
  shapeCasts_S96x128x32x128_S12288x4096 : S96x128x32x128.ShapeCasts S12288x4096
  bcast_S12288_S1x1x12288_2 : S12288.BroadcastsInDim S1x1x12288 (![2] : Fin 1 → Fin S1x1x12288.rank)
  bcast_S1x1x12288_S4x2048x12288_0_1_2 : S1x1x12288.BroadcastsInDim S4x2048x12288 (![0, 1, 2] : Fin 3 → Fin S4x2048x12288.rank)
  dot_S4x2048x4096_S12288x4096_S4x2048x12288_2_1_01_0_n_n_wf : DotDims.WF S4x2048x4096 S12288x4096 S4x2048x12288 [2] [1] [0, 1] [0] [] []

variable [Facts₀]

def dot_S4x2048x4096_S12288x4096_S4x2048x12288_2_1_01_0_n_n : DotDims S4x2048x4096 S12288x4096 S4x2048x12288 where
  lhsContracting := [2]
  rhsContracting := [1]
  lhsNonContracting := [0, 1]
  rhsNonContracting := [0]
  lhsBatch := []
  rhsBatch := []
  wf := dot_S4x2048x4096_S12288x4096_S4x2048x12288_2_1_01_0_n_n_wf

class Facts : Prop extends Facts₀ where

variable [Facts]
-- ==== Proof.Spec.lean ====
/-
  The mathematics both programs compute, as functions on the extended reals.

  An activation row of 4096 entries is cut into 32 blocks of 128. A block's SCALE is the larger of
  (the block's greatest absolute value) / 127 and the constant 1e-8 (as an f32 word); an entry is divided by its
  block's scale, rounded to the nearest integer (ties to even), clamped to [-127, 127] and multiplied by the scale
  again. The linear layer's result at (batch b, position s, output feature n) is the sum over the 4096 input
  features k of that re-scaled activation times a weight W (n, k), plus the bias at n. Every operation is the ideal
  instance's own (no rounding of the arithmetic); nothing here needs the entries to be finite.
-/
import Idealize.ShloMosaic.PureOps.Ideal
import Idealize.ShloMosaic.PureOps.Ideal.Laws
import Idealize.ShloMosaic.Lib.ValueIdx

noncomputable section

open scoped BigOperators

namespace Cert.BlockQuant

open Idealize.ShloMosaic Idealize.ShloMosaic.ValueIdx

/-- The activations' index set, (batch, position, feature). -/
abbrev ActIdx : Type := (⟨3, ![4, 2048, 4096]⟩ : Shape).Idx
/-- The dequantised weights' index set, (output feature, input feature). -/
abbrev WgtIdx : Type := (⟨2, ![12288, 4096]⟩ : Shape).Idx
/-- The bias's index set. -/
abbrev BiasIdx : Type := (⟨1, ![12288]⟩ : Shape).Idx
/-- The result's index set, (batch, position, output feature). -/
abbrev OutIdx : Type := (⟨3, ![4, 2048, 12288]⟩ : Shape).Idx
/-- The result's index set with batch and position merged into one row number. -/
abbrev OutFlatIdx : Type := (⟨2, ![8192, 12288]⟩ : Shape).Idx

/-- Entry `j` of block `blk` of a row sits at feature `128 · blk + j`. -/
def inBlock (blk : Fin 32) (j : Fin 128) : Fin 4096 := ⟨blk.val * 128 + j.val, by have := blk.isLt; have := j.isLt; omega⟩

/-- The block a feature lies in. -/
def blockOf (k : Fin 4096) : Fin 32 := ⟨k.val / 128, by have := k.isLt; omega⟩

/-- The greatest absolute value in a block, as the fold of `max` from −∞ over the block's 128 entries. -/
def blockAbsMax (x : ActIdx → EReal) (b : Fin 4) (s : Fin 2048) (blk : Fin 32) : EReal :=
  (Finset.univ : Finset (Fin 128)).fold (FloatOps.maximumf (F := Ideal) (φ := .f32)) (FloatOps.ofBits (F := Ideal) .f32 0xFF800000#32)
    (fun j => FloatOps.hostAbsf (F := Ideal) (φ := .f32) (x (ix3 b s (inBlock blk j))))

/-- A block's scale: `max (absmax / 127) 1e-8`. -/
def blockScale (x : ActIdx → EReal) (b : Fin 4) (s : Fin 2048) (blk : Fin 32) : EReal :=
  FloatOps.maximumf (F := Ideal) (φ := .f32)
    (FloatOps.hostDivf (F := Ideal) (φ := .f32) (blockAbsMax x b s blk) (FloatOps.ofBits (F := Ideal) .f32 0x42FE0000#32))
    (FloatOps.ofBits (F := Ideal) .f32 0x322BCC77#32)

/-- Quantise to the integers of [-127, 127] at scale `sc` and scale back: `clamp (round (v / sc)) · sc`. -/
def fakeQuant (v sc : EReal) : EReal :=
  FloatOps.mulf (F := Ideal) (φ := .f32)
    (FloatOps.minimumf (F := Ideal) (φ := .f32) (FloatOps.ofBits (F := Ideal) .f32 0x42FE0000#32)
      (FloatOps.maximumf (F := Ideal) (φ := .f32) (FloatOps.ofBits (F := Ideal) .f32 0xC2FE0000#32)
        (FloatOps.hostUnary (F := Ideal) .roundeven (φ := .f32) (FloatOps.hostDivf (F := Ideal) (φ := .f32) v sc))))
    sc

/-- The re-scaled activation at (b, s, k): the entry quantised at its own block's scale. -/
def actDeq (x : ActIdx → EReal) (b : Fin 4) (s : Fin 2048) (k : Fin 4096) : EReal :=
  fakeQuant (x (ix3 b s k)) (blockScale x b s (blockOf k))

/-- The layer's result: `Σ_k actDeq (b, s, k) · W (n, k) + bias n`. -/
def linearOut (x : ActIdx → EReal) (W : WgtIdx → EReal) (bias : BiasIdx → EReal) : OutIdx → EReal :=
  fun i => (∑ k : Fin 4096, actDeq x (i 0) (i 1) k * W (ix2 (i 2) k)) + bias (ix1 (i 2))

/-- Row `r` of the merged (batch, position) axis is batch `r / 2048`, position `r % 2048`. -/
def rowBatch (r : Fin 8192) : Fin 4 := ⟨r.val / 2048, by have := r.isLt; omega⟩
def rowPos (r : Fin 8192) : Fin 2048 := ⟨r.val % 2048, Nat.mod_lt _ (by decide)⟩

/-- The same result over merged rows. -/
def linearOutFlat (x : ActIdx → EReal) (W : WgtIdx → EReal) (bias : BiasIdx → EReal) : OutFlatIdx → EReal :=
  fun i => (∑ k : Fin 4096, actDeq x (rowBatch (i 0)) (rowPos (i 0)) k * W (ix2 (i 1) k)) + bias (ix1 (i 1))

/-- Merged row `2048 · b + s` is (b, s). -/
theorem linearOutFlat_merged (x : ActIdx → EReal) (W : WgtIdx → EReal) (bias : BiasIdx → EReal)
    (b : Fin 4) (s : Fin 2048) (n : Fin 12288) (r : Fin 8192) (hr : r.val = b.val * 2048 + s.val) :
    linearOutFlat x W bias (ix2 r n) = linearOut x W bias (ix3 b s n) := by
  have hb : rowBatch r = b := Fin.ext (by show r.val / 2048 = b.val; have := s.isLt; omega)
  have hs : rowPos r = s := Fin.ext (by show r.val % 2048 = s.val; have := s.isLt; omega)
  show (∑ k : Fin 4096, actDeq x (rowBatch r) (rowPos r) k * W (ix2 n k)) + bias (ix1 n) = _
  rw [hb, hs]
  rfl

end Cert.BlockQuant

end
-- ==== Proof.RefActivations.lean ====
/-
  The reference's re-scaled activations, read at an index.

  The reference views the activations as [4, 2048, 32, 128] (32 blocks of 128 per row), takes each block's greatest
  absolute value by a `max` reduction over the last axis, turns it into the block's scale, broadcasts the scale back
  over the block, quantises and re-scales every entry, and merges the last two axes again. Read at (b, s, k) the
  result is `actDeq` of the specification: the entry at (b, s, k) quantised at the scale of block `k / 128`.
-/
import proofs.«424631_j6777458393778_3_alg».proof.Proof.Gen.ReferenceIdeal.Read
import proofs.«424631_j6777458393778_3_alg».proof.Proof.Spec
import Idealize.ShloMosaic.PureOps.Ideal.Laws

noncomputable section

namespace Cert.ReferenceIdeal.Quant

open Cert.ReferenceIdeal Cert.ReferenceIdeal.Read Cert.BlockQuant
open Idealize.ShloMosaic Idealize.ShloMosaic.ValueIdx

/-- The reduction drops the last of four axes. -/
theorem reduces_lastAxis : S4x2048x32x128.Reduces [3] S4x2048x32 := by decide

/-- The source index over (b, s, blk) with `j` on the reduced axis is (b, s, blk, j). -/
theorem lift_eq (b : Fin 4) (s : Fin 2048) (blk : Fin 32) (j : Fin 128) :
    reduces_lastAxis.lift (ix3 b s blk) j = ix4 b s blk j := by
  funext a
  match a with
  | ⟨0, _⟩ => rfl
  | ⟨1, _⟩ => rfl
  | ⟨2, _⟩ => rfl
  | ⟨3, _⟩ => rfl

/-- The blocked view at (b, s, blk, j) is the activation at feature `128 · blk + j`: the two have the same
    row-major position. -/
theorem blocked_apply (x : (⟨S4x2048x4096, .f32⟩ : BufTy).Contents (Elt Ideal)) (b : Fin 4) (s : Fin 2048) (blk : Fin 32) (j : Fin 128) :
    val_main_v0 (F := Ideal) x (ix4 b s blk j) = x (ix3 b s (inBlock blk j)) := by
  rw [val_main_v0_apply]
  refine congrArg x (funext fun a => Fin.ext ?_)
  have hb := b.isLt; have hs := s.isLt; have hblk := blk.isLt; have hj := j.isLt
  match a with
  | ⟨0, _⟩ => show (((b.val * 2048 + s.val) * 32 + blk.val) * 128 + j.val) / 8388608 = b.val; omega
  | ⟨1, _⟩ => show (((b.val * 2048 + s.val) * 32 + blk.val) * 128 + j.val) / 4096 % 2048 = s.val; omega
  | ⟨2, _⟩ => show (((b.val * 2048 + s.val) * 32 + blk.val) * 128 + j.val) % 4096 = blk.val * 128 + j.val; omega

/-- The `max` reduction at (b, s, blk) is the block's greatest absolute value. -/
theorem absmax_apply (x : (⟨S4x2048x4096, .f32⟩ : BufTy).Contents (Elt Ideal)) (b : Fin 4) (s : Fin 2048) (blk : Fin 32) :
    val_main_v2 (F := Ideal) x (ix3 b s blk) = blockAbsMax x b s blk := by
  unfold val_main_v2
  rw [Host.reduce_eq_fold_single (FloatOps.maximumf (F := Ideal) (φ := .f32)) _ _ _ reduces_lastAxis]
  have hf : (val_main_v1 (F := Ideal) x ∘ reduces_lastAxis.lift (ix3 b s blk) : Fin 128 → EReal)
      = fun j => FloatOps.hostAbsf (F := Ideal) (φ := .f32) (x (ix3 b s (inBlock blk j))) := by
    funext j
    show val_main_v1 (F := Ideal) x (reduces_lastAxis.lift (ix3 b s blk) j) = _
    rw [lift_eq, val_main_v1_apply, blocked_apply]
  unfold blockAbsMax
  rw [← hf]
  rfl

/-- The scale array at (b, s, blk) is the block's scale. -/
theorem scale_apply (x : (⟨S4x2048x4096, .f32⟩ : BufTy).Contents (Elt Ideal)) (b : Fin 4) (s : Fin 2048) (blk : Fin 32) :
    val_main_v6 (F := Ideal) x (ix3 b s blk) = blockScale x b s blk := by
  rw [val_main_v6_apply, val_main_v4_apply, absmax_apply, val_main_v3_apply, val_main_v5_apply]
  rfl

/-- The scale broadcast back over the block (the copy the division reads) is the block's scale at every entry. -/
theorem scaleDiv_apply (x : (⟨S4x2048x4096, .f32⟩ : BufTy).Contents (Elt Ideal)) (b : Fin 4) (s : Fin 2048) (blk : Fin 32) (j : Fin 128) :
    val_main_v8 (F := Ideal) x (ix4 b s blk j) = blockScale x b s blk := by
  rw [val_main_v8_apply, val_main_v7_apply]
  have e : idx_main_v7 (idx_main_v8 (ix4 b s blk j)) = ix3 b s blk := by
    funext a
    match a with
    | ⟨0, _⟩ => rfl
    | ⟨1, _⟩ => rfl
    | ⟨2, _⟩ => rfl
  rw [e, scale_apply]

/-- The second broadcast copy (the one the final product reads) likewise. -/
theorem scaleMul_apply (x : (⟨S4x2048x4096, .f32⟩ : BufTy).Contents (Elt Ideal)) (b : Fin 4) (s : Fin 2048) (blk : Fin 32) (j : Fin 128) :
    val_main_v13 (F := Ideal) x (ix4 b s blk j) = blockScale x b s blk := by
  rw [val_main_v13_apply, val_main_v12_apply]
  have e : idx_main_v12 (idx_main_v13 (ix4 b s blk j)) = ix3 b s blk := by
    funext a
    match a with
    | ⟨0, _⟩ => rfl
    | ⟨1, _⟩ => rfl
    | ⟨2, _⟩ => rfl
  rw [e, scale_apply]

/-- THE RE-SCALED ACTIVATIONS at (b, s, k): the entry quantised at the scale of its block. -/
theorem actDeq_apply (x : (⟨S4x2048x4096, .f32⟩ : BufTy).Contents (Elt Ideal)) (b : Fin 4) (s : Fin 2048) (k : Fin 4096) :
    val_main_v15 (F := Ideal) x (ix3 b s k) = actDeq x b s k := by
  have hb := b.isLt; have hs := s.isLt; have hk := k.isLt
  rw [val_main_v15_apply]
  have e : idx_main_v15 (ix3 b s k) = ix4 b s (blockOf k) (⟨k.val % 128, Nat.mod_lt _ (by decide)⟩ : Fin 128) := by
    funext a
    apply Fin.ext
    match a with
    | ⟨0, _⟩ => show ((b.val * 2048 + s.val) * 4096 + k.val) / 8388608 = b.val; omega
    | ⟨1, _⟩ => show ((b.val * 2048 + s.val) * 4096 + k.val) / 4096 % 2048 = s.val; omega
    | ⟨2, _⟩ => show ((b.val * 2048 + s.val) * 4096 + k.val) / 128 % 32 = k.val / 128; omega
    | ⟨3, _⟩ => show ((b.val * 2048 + s.val) * 4096 + k.val) % 128 = k.val % 128; omega
  have hin : inBlock (blockOf k) (⟨k.val % 128, Nat.mod_lt _ (by decide)⟩ : Fin 128) = k :=
    Fin.ext (by show k.val / 128 * 128 + k.val % 128 = k.val; omega)
  rw [e, val_main_v14_apply, val_main_v11_apply, val_main_call1_v2_apply, val_main_v10_apply, val_main_v9_apply,
    blocked_apply, scaleDiv_apply, scaleMul_apply, val_main_call1_v4_apply, val_main_call1_v1_apply, hin]
  rfl

end Cert.ReferenceIdeal.Quant

end
-- ==== Proof.RefResult.lean ====
/-
  The reference's result is the specification's `linearOut`.

  Its `dot_general` contracts the feature axis of the re-scaled activations [4, 2048, 4096] with the feature axis of
  the dequantised weights [12288, 4096]: at (b, s, n) the sum over k of activation (b, s, k) times weight (n, k); the
  bias is broadcast over batch and position and added.
-/
import proofs.«424631_j6777458393778_3_alg».proof.Proof.RefActivations

noncomputable section

open scoped BigOperators

namespace Cert.ReferenceIdeal.Quant

open Cert.ReferenceIdeal Cert.ReferenceIdeal.Read Cert.BlockQuant
open Idealize.ShloMosaic Idealize.ShloMosaic.ValueIdx

/-- The reference's last stage, as one function of the four arguments, is `linearOut` over its own dequantised
    weights. -/
theorem result_eq (x : (⟨S4x2048x4096, .f32⟩ : BufTy).Contents (Elt Ideal)) (w : (⟨S12288x4096, .i32⟩ : BufTy).Contents (Elt Ideal))
    (sc : (⟨S96x32, .f32⟩ : BufTy).Contents (Elt Ideal)) (bias : (⟨S12288, .f32⟩ : BufTy).Contents (Elt Ideal)) :
    val_main_v25 (F := Ideal) x w sc bias = linearOut x (val_main_v21 (F := Ideal) w sc) bias := by
  funext i
  obtain ⟨b, s, n, rfl⟩ : ∃ (b : Fin 4) (s : Fin 2048) (n : Fin 12288), i = ix3 b s n := ⟨i 0, i 1, i 2, eq_ix3 i⟩
  rw [val_main_v25_apply, val_main_v22_apply, val_main_v24_apply, val_main_v23_apply]
  show (∑ k : Fin 4096, val_main_v15 (F := Ideal) x (lidx_main_v22 (ix3 b s n) k) * val_main_v21 (F := Ideal) w sc (ridx_main_v22 (ix3 b s n) k))
      + bias (idx_main_v23 (idx_main_v24 (ix3 b s n)))
    = (∑ k : Fin 4096, actDeq x b s k * val_main_v21 (F := Ideal) w sc (ix2 n k)) + bias (ix1 n)
  have hbias : idx_main_v23 (idx_main_v24 (ix3 b s n)) = ix1 n := by
    funext a
    match a with
    | ⟨0, _⟩ => rfl
  rw [hbias]
  refine congrArg (· + bias (ix1 n)) (Finset.sum_congr rfl fun k _ => ?_)
  have el : lidx_main_v22 (ix3 b s n) k = ix3 b s k := by
    funext a
    match a with
    | ⟨0, _⟩ => rfl
    | ⟨1, _⟩ => rfl
    | ⟨2, _⟩ => rfl
  have er : ridx_main_v22 (ix3 b s n) k = ix2 n k := by
    funext a
    match a with
    | ⟨0, _⟩ => rfl
    | ⟨1, _⟩ => rfl
  rw [el, er, actDeq_apply]

end Cert.ReferenceIdeal.Quant

end
-- ==== Proof.KernelActivations.lean ====
/-
  The kernel's prepared operands, as functions of the arguments, and its activations read at an index.

  Before its one matrix product the kernel re-scales the activations over MERGED rows: the [4, 2048, 4096] array is
  viewed as [8192, 4096] (row `r = 2048 · b + s`) and then as [8192, 32, 128]; a `max` reduction over the last axis
  gives each block's greatest absolute value, kept as a column [8192, 32, 1]; the column is divided by 127, bounded
  below by 1e-8 and broadcast back over the block; every entry is divided by it, rounded, clamped to [-127, 127] and
  multiplied by it; the result is viewed as [8192, 4096] again and narrowed to bf16, which at the ideal values is the
  identity. Read at (r, k) it is the specification's `actDeq` at batch `r / 2048`, position `r % 2048`: the three
  views keep row-major positions, so entry (r, blk, j) is the activation (r / 2048, r % 2048, 128 · blk + j).
  The weights are prepared by the same chain as the reference's (integer to float, a view as 96 × 128 × 32 × 128,
  the product with the broadcast scales, the view back) and narrowed to bf16.
-/
import proofs.«424631_j6777458393778_3_alg».proof.Proof.Gen.KernelIdeal
import proofs.«424631_j6777458393778_3_alg».proof.Proof.Spec
import Idealize.ShloMosaic.Lib.Pipeline.Value
import Idealize.ShloMosaic.Lib.ValueIdx
import Idealize.ShloMosaic.PureOps.Ideal.Laws

noncomputable section

namespace Cert.KernelIdeal.Quant

open Cert.KernelIdeal Cert.KernelIdeal.Gen Cert.BlockQuant
open Idealize.ShloMosaic Idealize.ShloMosaic.ValueIdx

variable {F : FTy → Type} [FloatOps F]

/-! ## The stages, as the program's host lines compose them -/

/-- The activations over merged rows. -/
def xFlat (x : (⟨S4x2048x4096, .f32⟩ : BufTy).Contents (Elt F)) : (⟨S8192x4096, .f32⟩ : BufTy).Contents (Elt F) :=
  shapeCast _ x shapeCasts_S4x2048x4096_S8192x4096
/-- … and cut into blocks of 128. -/
def xBlk (x : (⟨S4x2048x4096, .f32⟩ : BufTy).Contents (Elt F)) : (⟨S8192x32x128, .f32⟩ : BufTy).Contents (Elt F) :=
  shapeCast _ (xFlat x) shapeCasts_S8192x4096_S8192x32x128
/-- Absolute values. -/
def absBlk (x : (⟨S4x2048x4096, .f32⟩ : BufTy).Contents (Elt F)) : (⟨S8192x32x128, .f32⟩ : BufTy).Contents (Elt F) :=
  Host.absf (xBlk x)
/-- Each block's greatest absolute value. -/
def amax (x : (⟨S4x2048x4096, .f32⟩ : BufTy).Contents (Elt F)) : (⟨S8192x32, .f32⟩ : BufTy).Contents (Elt F) :=
  Host.reduce FloatOps.maximumf (absBlk x) (constant S_ .f32 0xFF800000#32) reducesTo_S8192x32x128_S8192x32_d2 h_S_
/-- … kept as a column. -/
def amaxCol (x : (⟨S4x2048x4096, .f32⟩ : BufTy).Contents (Elt F)) : (⟨S8192x32x1, .f32⟩ : BufTy).Contents (Elt F) :=
  broadcastInDim S8192x32x1 ![0, 1] bcast_S8192x32_S8192x32x1_0_1 (amax x)
/-- The constant 127 as a column. -/
def c127Col : (⟨S8192x32x1, .f32⟩ : BufTy).Contents (Elt F) :=
  broadcastInDim S8192x32x1 ![] bcast_S_S8192x32x1 (constant S_ .f32 0x42FE0000#32)
/-- absmax / 127. -/
def ratioCol (x : (⟨S4x2048x4096, .f32⟩ : BufTy).Contents (Elt F)) : (⟨S8192x32x1, .f32⟩ : BufTy).Contents (Elt F) :=
  Host.divf (amaxCol x) c127Col
/-- The constant 1e-8 as a column. -/
def epsCol : (⟨S8192x32x1, .f32⟩ : BufTy).Contents (Elt F) :=
  broadcastInDim S8192x32x1 ![] bcast_S_S8192x32x1 (constant S_ .f32 0x322BCC77#32)
/-- The scales, one per block. -/
def scaleCol (x : (⟨S4x2048x4096, .f32⟩ : BufTy).Contents (Elt F)) : (⟨S8192x32x1, .f32⟩ : BufTy).Contents (Elt F) :=
  maximumf (ratioCol x) epsCol
/-- The scales broadcast over their blocks. -/
def scaleBlk (x : (⟨S4x2048x4096, .f32⟩ : BufTy).Contents (Elt F)) : (⟨S8192x32x128, .f32⟩ : BufTy).Contents (Elt F) :=
  broadcastInDim S8192x32x128 ![0, 1, 2] bcast_S8192x32x1_S8192x32x128_0_1_2 (scaleCol x)
/-- entry / scale. -/
def quot (x : (⟨S4x2048x4096, .f32⟩ : BufTy).Contents (Elt F)) : (⟨S8192x32x128, .f32⟩ : BufTy).Contents (Elt F) :=
  Host.divf (xBlk x) (scaleBlk x)
/-- … rounded to the nearest integer, ties to even. -/
def rounded (x : (⟨S4x2048x4096, .f32⟩ : BufTy).Contents (Elt F)) : (⟨S8192x32x128, .f32⟩ : BufTy).Contents (Elt F) :=
  Host.roundeven (quot x)
/-- The lower clamp bound −127 over a block array. -/
def loBlk : (⟨S8192x32x128, .f32⟩ : BufTy).Contents (Elt F) :=
  broadcastInDim S8192x32x128 ![] bcast_S_S8192x32x128 (id (constant S_ .f32 0xC2FE0000#32))
/-- The upper clamp bound 127. -/
def hiBlk : (⟨S8192x32x128, .f32⟩ : BufTy).Contents (Elt F) :=
  broadcastInDim S8192x32x128 ![] bcast_S_S8192x32x128 (id (constant S_ .f32 0x42FE0000#32))
/-- Clamped to [-127, 127]. -/
def clamped (x : (⟨S4x2048x4096, .f32⟩ : BufTy).Contents (Elt F)) : (⟨S8192x32x128, .f32⟩ : BufTy).Contents (Elt F) :=
  minimumf hiBlk (maximumf loBlk (rounded x))
/-- … and multiplied by the scale again. -/
def deqBlk (x : (⟨S4x2048x4096, .f32⟩ : BufTy).Contents (Elt F)) : (⟨S8192x32x128, .f32⟩ : BufTy).Contents (Elt F) :=
  mulf (clamped x) (scaleBlk x)
/-- The re-scaled activations over merged rows … -/
def deqFlat (x : (⟨S4x2048x4096, .f32⟩ : BufTy).Contents (Elt F)) : (⟨S8192x4096, .f32⟩ : BufTy).Contents (Elt F) :=
  shapeCast _ (deqBlk x) shapeCasts_S8192x32x128_S8192x4096
/-- … narrowed to bf16: the matrix product's left operand. -/
def actBf16 (x : (⟨S4x2048x4096, .f32⟩ : BufTy).Contents (Elt F)) : (⟨S8192x4096, .bf16⟩ : BufTy).Contents (Elt F) :=
  truncf .bf16 (deqFlat x) bitsLt_bf16_f32

/-- The dequantised weights narrowed to bf16: the matrix product's right operand. -/
def wgtBf16 (w : (⟨S12288x4096, .i32⟩ : BufTy).Contents (Elt F)) (sc : (⟨S96x32, .f32⟩ : BufTy).Contents (Elt F)) :
    (⟨S12288x4096, .bf16⟩ : BufTy).Contents (Elt F) :=
  truncf .bf16 (shapeCast _ (mulf (shapeCast _ (sitofp .f32 w) shapeCasts_S12288x4096_S96x128x32x128)
      (broadcastInDim S96x128x32x128 ![0, 1, 2, 3] bcast_S96x1x32x1_S96x128x32x128_0_1_2_3
        (broadcastInDim S96x1x32x1 ![0, 2] bcast_S96x32_S96x1x32x1_0_2 sc))) shapeCasts_S96x128x32x128_S12288x4096) bitsLt_bf16_f32

/-! ## The activation stages read at an index, at the ideal values -/

/-- The reduction drops the last of three axes. -/
theorem reduces_lastAxis : S8192x32x128.Reduces [2] S8192x32 := by decide

/-- The source index over (r, blk) with `j` on the reduced axis is (r, blk, j). -/
theorem lift_eq (r : Fin 8192) (blk : Fin 32) (j : Fin 128) :
    reduces_lastAxis.lift (ix2 r blk) j = ix3 r blk j := by
  funext a
  match a with
  | ⟨0, _⟩ => rfl
  | ⟨1, _⟩ => rfl
  | ⟨2, _⟩ => rfl

/-- Entry (r, blk, j) of the blocked view is the activation (r / 2048, r % 2048, 128 · blk + j): the views keep the
    row-major position. -/
theorem xBlk_apply (x : (⟨S4x2048x4096, .f32⟩ : BufTy).Contents (Elt Ideal)) (r : Fin 8192) (blk : Fin 32) (j : Fin 128) :
    xBlk (F := Ideal) x (ix3 r blk j) = x (ix3 (rowBatch r) (rowPos r) (inBlock blk j)) := by
  have hr := r.isLt; have hblk := blk.isLt; have hj := j.isLt
  unfold xBlk xFlat
  rw [shapeCast_apply _ shapeCasts_S8192x4096_S8192x32x128 (ix3 r blk j) (ix2 r (inBlock blk j))
      (by rw [Shape.rowMajor_val_two, Shape.rowMajor_val_three]
          show r.val * 4096 + (blk.val * 128 + j.val) = (r.val * 32 + blk.val) * 128 + j.val; omega),
    shapeCast_apply _ shapeCasts_S4x2048x4096_S8192x4096 (ix2 r (inBlock blk j)) (ix3 (rowBatch r) (rowPos r) (inBlock blk j))
      (by rw [Shape.rowMajor_val_three, Shape.rowMajor_val_two]
          show (r.val / 2048 * 2048 + r.val % 2048) * 4096 + (blk.val * 128 + j.val) = r.val * 4096 + (blk.val * 128 + j.val); omega)]

theorem absBlk_apply (x : (⟨S4x2048x4096, .f32⟩ : BufTy).Contents (Elt Ideal)) (i : S8192x32x128.Idx) :
    absBlk (F := Ideal) x i = FloatOps.hostAbsf (F := Ideal) (φ := .f32) (xBlk (F := Ideal) x i) := rfl

/-- The `max` reduction at (r, blk) is the block's greatest absolute value. -/
theorem amax_apply (x : (⟨S4x2048x4096, .f32⟩ : BufTy).Contents (Elt Ideal)) (r : Fin 8192) (blk : Fin 32) :
    amax (F := Ideal) x (ix2 r blk) = blockAbsMax x (rowBatch r) (rowPos r) blk := by
  unfold amax
  rw [Host.reduce_eq_fold_single (FloatOps.maximumf (F := Ideal) (φ := .f32)) _ _ _ reduces_lastAxis]
  have hf : (absBlk (F := Ideal) x ∘ reduces_lastAxis.lift (ix2 r blk) : Fin 128 → EReal)
      = fun j => FloatOps.hostAbsf (F := Ideal) (φ := .f32) (x (ix3 (rowBatch r) (rowPos r) (inBlock blk j))) := by
    funext j
    show absBlk (F := Ideal) x (reduces_lastAxis.lift (ix2 r blk) j) = _
    rw [lift_eq, absBlk_apply, xBlk_apply]
  unfold blockAbsMax
  rw [← hf]
  rfl

/-- The column of greatest absolute values at (r, blk, 0). -/
theorem amaxCol_apply (x : (⟨S4x2048x4096, .f32⟩ : BufTy).Contents (Elt Ideal)) (r : Fin 8192) (blk : Fin 32) (z : Fin 1) :
    amaxCol (F := Ideal) x (ix3 r blk z) = amax (F := Ideal) x (ix2 r blk) := by
  unfold amaxCol
  generalize amax (F := Ideal) x = y
  exact broadcastInDim_apply _ bcast_S8192x32_S8192x32x1_0_1 y (ix3 r blk z) (ix2 r blk) (fun a => match a with
    | ⟨0, _⟩ => by show r.val = if (8192 : Nat) = 1 then 0 else r.val; rw [if_neg (by decide)]
    | ⟨1, _⟩ => by show blk.val = if (32 : Nat) = 1 then 0 else blk.val; rw [if_neg (by decide)])

theorem c127Col_apply (i : S8192x32x1.Idx) : c127Col (F := Ideal) i = FloatOps.ofBits (F := Ideal) .f32 0x42FE0000#32 := by
  unfold c127Col
  exact broadcastInDim_apply _ bcast_S_S8192x32x1 _ i ix0 (fun a => a.elim0)

theorem epsCol_apply (i : S8192x32x1.Idx) : epsCol (F := Ideal) i = FloatOps.ofBits (F := Ideal) .f32 0x322BCC77#32 := by
  unfold epsCol
  exact broadcastInDim_apply _ bcast_S_S8192x32x1 _ i ix0 (fun a => a.elim0)

/-- The scale column at (r, blk, 0) is the block's scale. -/
theorem scaleCol_apply (x : (⟨S4x2048x4096, .f32⟩ : BufTy).Contents (Elt Ideal)) (r : Fin 8192) (blk : Fin 32) (z : Fin 1) :
    scaleCol (F := Ideal) x (ix3 r blk z) = blockScale x (rowBatch r) (rowPos r) blk := by
  show FloatOps.maximumf (F := Ideal) (φ := .f32) (FloatOps.hostDivf (F := Ideal) (φ := .f32) (amaxCol (F := Ideal) x (ix3 r blk z)) (c127Col (F := Ideal) (ix3 r blk z))) (epsCol (F := Ideal) (ix3 r blk z)) = _
  rw [amaxCol_apply, amax_apply, c127Col_apply, epsCol_apply]
  rfl

/-- The scale broadcast over its block. -/
theorem scaleBlk_apply (x : (⟨S4x2048x4096, .f32⟩ : BufTy).Contents (Elt Ideal)) (r : Fin 8192) (blk : Fin 32) (j : Fin 128) :
    scaleBlk (F := Ideal) x (ix3 r blk j) = blockScale x (rowBatch r) (rowPos r) blk := by
  have e : scaleBlk (F := Ideal) x (ix3 r blk j) = scaleCol (F := Ideal) x (ix3 r blk (0 : Fin 1)) := by
    unfold scaleBlk
    generalize scaleCol (F := Ideal) x = y
    exact broadcastInDim_apply _ bcast_S8192x32x1_S8192x32x128_0_1_2 y (ix3 r blk j) (ix3 r blk (0 : Fin 1)) (fun a => match a with
      | ⟨0, _⟩ => by show r.val = if (8192 : Nat) = 1 then 0 else r.val; rw [if_neg (by decide)]
      | ⟨1, _⟩ => by show blk.val = if (32 : Nat) = 1 then 0 else blk.val; rw [if_neg (by decide)]
      | ⟨2, _⟩ => by show 0 = if (1 : Nat) = 1 then 0 else j.val; rw [if_pos rfl])
  rw [e, scaleCol_apply]

theorem loBlk_apply (i : S8192x32x128.Idx) : loBlk (F := Ideal) i = FloatOps.ofBits (F := Ideal) .f32 0xC2FE0000#32 := by
  unfold loBlk
  exact broadcastInDim_apply _ bcast_S_S8192x32x128 _ i ix0 (fun a => a.elim0)

theorem hiBlk_apply (i : S8192x32x128.Idx) : hiBlk (F := Ideal) i = FloatOps.ofBits (F := Ideal) .f32 0x42FE0000#32 := by
  unfold hiBlk
  exact broadcastInDim_apply _ bcast_S_S8192x32x128 _ i ix0 (fun a => a.elim0)

/-- The re-scaled entry (r, blk, j): the activation quantised at its block's scale. -/
theorem deqBlk_apply (x : (⟨S4x2048x4096, .f32⟩ : BufTy).Contents (Elt Ideal)) (r : Fin 8192) (blk : Fin 32) (j : Fin 128) :
    deqBlk (F := Ideal) x (ix3 r blk j)
      = fakeQuant (x (ix3 (rowBatch r) (rowPos r) (inBlock blk j))) (blockScale x (rowBatch r) (rowPos r) blk) := by
  show FloatOps.mulf (F := Ideal) (φ := .f32) (FloatOps.minimumf (F := Ideal) (φ := .f32) (hiBlk (F := Ideal) (ix3 r blk j))
      (FloatOps.maximumf (F := Ideal) (φ := .f32) (loBlk (F := Ideal) (ix3 r blk j))
        (FloatOps.hostUnary (F := Ideal) .roundeven (φ := .f32) (FloatOps.hostDivf (F := Ideal) (φ := .f32) (xBlk (F := Ideal) x (ix3 r blk j)) (scaleBlk (F := Ideal) x (ix3 r blk j))))))
    (scaleBlk (F := Ideal) x (ix3 r blk j)) = _
  rw [hiBlk_apply, loBlk_apply, xBlk_apply, scaleBlk_apply]
  rfl

/-- THE LEFT OPERAND at (r, k): the specification's re-scaled activation of batch `r / 2048`, position `r % 2048`. -/
theorem actBf16_apply (x : (⟨S4x2048x4096, .f32⟩ : BufTy).Contents (Elt Ideal)) (r : Fin 8192) (k : Fin 4096) :
    actBf16 (F := Ideal) x (ix2 r k) = actDeq x (rowBatch r) (rowPos r) k := by
  have hr := r.isLt; have hk := k.isLt
  have hin : inBlock (blockOf k) (⟨k.val % 128, Nat.mod_lt _ (by decide)⟩ : Fin 128) = k :=
    Fin.ext (by show k.val / 128 * 128 + k.val % 128 = k.val; omega)
  show deqFlat (F := Ideal) x (ix2 r k) = _
  unfold deqFlat
  rw [shapeCast_apply _ shapeCasts_S8192x32x128_S8192x4096 (ix2 r k) (ix3 r (blockOf k) (⟨k.val % 128, Nat.mod_lt _ (by decide)⟩ : Fin 128))
      (by rw [Shape.rowMajor_val_three, Shape.rowMajor_val_two]
          show (r.val * 32 + k.val / 128) * 128 + k.val % 128 = r.val * 4096 + k.val; omega),
    deqBlk_apply, hin]
  rfl

end Cert.KernelIdeal.Quant

end
-- ==== Proof.KernelWeights.lean ====
/-
  The kernel's dequantised weights are the reference's: the two programs prepare them by the same chain of
  operations, and the kernel's last step, narrowing to bf16, is the identity at the ideal values.
-/
import proofs.«424631_j6777458393778_3_alg».proof.Proof.KernelActivations
import proofs.«424631_j6777458393778_3_alg».proof.Proof.Gen.ReferenceIdeal.Read

noncomputable section

namespace Cert.KernelIdeal.Quant

open Idealize.ShloMosaic Cert.BlockQuant

/-- Entry for entry, the kernel's bf16 weights are the reference's f32 dequantised weights. -/
theorem wgtBf16_eq (w : (⟨Cert.KernelIdeal.S12288x4096, .i32⟩ : BufTy).Contents (Elt Ideal))
    (sc : (⟨Cert.KernelIdeal.S96x32, .f32⟩ : BufTy).Contents (Elt Ideal)) (i : WgtIdx) :
    wgtBf16 (F := Ideal) w sc i = Cert.ReferenceIdeal.Read.val_main_v21 (F := Ideal) w sc i := rfl

end Cert.KernelIdeal.Quant

end
-- ==== Proof.KernelPrefix.lean ====
/-
  What the matrix product's two prepared operands hold when the region is entered: the host lines before the region,
  composed, are the stage functions of the arguments' launch contents (the activations re-scaled over merged rows, the
  weights dequantised), both narrowed to bf16.
-/
import proofs.«424631_j6777458393778_3_alg».proof.Proof.Gen.KernelIdeal.Frame
import proofs.«424631_j6777458393778_3_alg».proof.Proof.KernelActivations
import Idealize.ShloMosaic.Lib.StableHlo.Run

noncomputable section

namespace Cert.KernelIdeal.Quant

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 2000000 in
/-- The left operand's array at region entry is the re-scaled activations of the launch contents. -/
theorem V_act (c : Dev nD) :
    (V m c main_v16 : (⟨S8192x4096, .bf16⟩ : BufTy).Contents (Elt F)) = actBf16 (m ((c : Thread nD τ).loc main_arg0)) := by
  dsimp only [V, V0]
  simp only [hostOps0, hostOps0_1, hostOps0_2, hostOps0_3, hostOps0_4, List.flatten_cons, List.flatten_nil, List.append_nil,
    List.cons_append, List.nil_append]
  after_results_simp <;> rfl

set_option maxHeartbeats 2000000 in
/-- The right operand's array at region entry is the dequantised weights of the launch contents. -/
theorem V_wgt (c : Dev nD) :
    (V m c main_v23 : (⟨S12288x4096, .bf16⟩ : BufTy).Contents (Elt F))
      = wgtBf16 (m ((c : Thread nD τ).loc main_arg1)) (m ((c : Thread nD τ).loc main_arg2)) := by
  dsimp only [V, V0]
  simp only [hostOps0, hostOps0_1, hostOps0_2, hostOps0_3, hostOps0_4, List.flatten_cons, List.flatten_nil, List.append_nil,
    List.cons_append, List.nil_append]
  after_results_simp <;> rfl

end Cert.KernelIdeal.Quant

end
-- ==== Proof.KernelPayload.lean ====
/-
  The kernel body's one stored value, read at an entry.

  The body loads a [2048, 4096] block of activations, a [512, 4096] block of weights and 512 bias entries, contracts
  the two blocks over their second axes into a zero accumulator and adds the bias row to every row of the product.
  At the ideal values entry (p, q) of what it stores is the sum over the 4096 features k of activation (p, k) times
  weight (q, k), plus bias q.
-/
import proofs.«424631_j6777458393778_3_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Product

open Cert.KernelIdeal Cert.KernelIdeal.Gen
open Idealize.ShloMosaic Idealize.ShloMosaic.ValueIdx

/-- The left operand is read on axis 0 at the result's row … -/
theorem lhs_row (i : S2048x512.Idx) (q : dot_S2048x4096_S512x4096_S2048x512_1_1_0_0_n_n.contr.Idx) :
    (dot_S2048x4096_S512x4096_S2048x512_1_1_0_0_n_n.lhsIdx i q 0).val = (i 0).val := by
  unfold DotDims.lhsIdx
  rw [dif_neg (show ¬(0 : Fin S2048x4096.rank) ∈ dot_S2048x4096_S512x4096_S2048x512_1_1_0_0_n_n.lhsBatch by decide), dif_pos (show (0 : Fin S2048x4096.rank) ∈ dot_S2048x4096_S512x4096_S2048x512_1_1_0_0_n_n.lhsNonContracting by decide)]
  rfl
/-- … and on axis 1 at the contraction index. -/
theorem lhs_contr (i : S2048x512.Idx) (q : dot_S2048x4096_S512x4096_S2048x512_1_1_0_0_n_n.contr.Idx) :
    (dot_S2048x4096_S512x4096_S2048x512_1_1_0_0_n_n.lhsIdx i q 1).val = (q ⟨0, by decide⟩).val :=
  dot_S2048x4096_S512x4096_S2048x512_1_1_0_0_n_n.lhsIdx_val_of_single rfl i q
/-- The right operand is read on axis 0 at the result's column … -/
theorem rhs_row (i : S2048x512.Idx) (q : dot_S2048x4096_S512x4096_S2048x512_1_1_0_0_n_n.contr.Idx) :
    (dot_S2048x4096_S512x4096_S2048x512_1_1_0_0_n_n.rhsIdx i q 0).val = (i 1).val := by
  unfold DotDims.rhsIdx
  rw [dif_neg (show ¬(0 : Fin S512x4096.rank) ∈ dot_S2048x4096_S512x4096_S2048x512_1_1_0_0_n_n.rhsBatch by decide), dif_pos (show (0 : Fin S512x4096.rank) ∈ dot_S2048x4096_S512x4096_S2048x512_1_1_0_0_n_n.rhsNonContracting by decide)]
  rfl
/-- … and on axis 1 at the contraction index. -/
theorem rhs_contr (i : S2048x512.Idx) (q : dot_S2048x4096_S512x4096_S2048x512_1_1_0_0_n_n.contr.Idx) :
    (dot_S2048x4096_S512x4096_S2048x512_1_1_0_0_n_n.rhsIdx i q 1).val = (q ⟨0, by decide⟩).val :=
  dot_S2048x4096_S512x4096_S2048x512_1_1_0_0_n_n.rhsIdx_val_of_single rfl i q

/-- The product into the zero accumulator at (p, q): the sum over k of left (p, k) times right (q, k). -/
theorem product_apply (a : FVec Ideal S2048x4096 .bf16) (b : FVec Ideal S512x4096 .bf16) (p : Fin 2048) (q : Fin 512) :
    matmul dot_S2048x4096_S512x4096_S2048x512_1_1_0_0_n_n none a b (constant S2048x512 .f32 0x00000000#32) (ix2 p q)
      = ∑ k : Fin 4096, a (ix2 p k) * b (ix2 q k) := by
  simp only [matmul]
  rw [Ideal.matmul_constant_zero_apply, ← Equiv.sum_comp (ValueIdx.contrEquiv1 dot_S2048x4096_S512x4096_S2048x512_1_1_0_0_n_n 4096 rfl rfl).symm]
  refine Finset.sum_congr rfl fun k _ => ?_
  have hk := ValueIdx.contrEquiv1_symm_val dot_S2048x4096_S512x4096_S2048x512_1_1_0_0_n_n 4096 rfl rfl k
  have el : dot_S2048x4096_S512x4096_S2048x512_1_1_0_0_n_n.lhsIdx (ix2 p q) ((ValueIdx.contrEquiv1 dot_S2048x4096_S512x4096_S2048x512_1_1_0_0_n_n 4096 rfl rfl).symm k) = ix2 p k := funext fun a => Fin.ext (by
    match a with
    | ⟨0, _⟩ => exact lhs_row _ _
    | ⟨1, _⟩ => exact (lhs_contr _ _).trans hk)
  have er : dot_S2048x4096_S512x4096_S2048x512_1_1_0_0_n_n.rhsIdx (ix2 p q) ((ValueIdx.contrEquiv1 dot_S2048x4096_S512x4096_S2048x512_1_1_0_0_n_n 4096 rfl rfl).symm k) = ix2 q k := funext fun a => Fin.ext (by
    match a with
    | ⟨0, _⟩ => exact rhs_row _ _
    | ⟨1, _⟩ => exact (rhs_contr _ _).trans hk)
  rw [el, er]

/-- The bias row broadcast down the 2048 rows reads bias `q` in column `q` of every row. -/
theorem biasRows_apply (v : FVec Ideal S512 .f32) (p : Fin 2048) (q : Fin 512) :
    broadcastTo S2048x512 (shapeCast S1x512 v shapeCasts_S512_S1x512) broadcasts_S1x512_S2048x512 (ix2 p q) = v (ix1 q) := by
  rw [broadcastTo_apply _ broadcasts_S1x512_S2048x512 (ix2 p q) (ix2 (0 : Fin 1) q) (fun a => match a with
      | ⟨0, _⟩ => by show 0 = if (1 : Nat) = 1 then 0 else p.val; rw [if_pos rfl]
      | ⟨1, _⟩ => by show q.val = if (512 : Nat) = 1 then 0 else q.val; rw [if_neg (by decide)]),
    shapeCast_apply _ shapeCasts_S512_S1x512 (ix2 (0 : Fin 1) q) (ix1 q)
      (by rw [Shape.rowMajor_val_one, Shape.rowMajor_val_two]; show q.val = 0 * 512 + q.val; omega)]

/-- THE STORED VALUE at (p, q). -/
theorem payload_apply (v0 : Vec Ideal S2048x4096 .bf16) (v2 : Vec Ideal S512x4096 .bf16) (v5 : Vec Ideal S512 .f32) (p : Fin 2048) (q : Fin 512) :
    k0_pay1 (F := Ideal) v0 v2 v5 (ix2 p q) = (∑ k : Fin 4096, v0 (ix2 p k) * v2 (ix2 q k)) + v5 (ix1 q) := by
  unfold k0_pay1
  show matmul (F := Ideal) dot_S2048x4096_S512x4096_S2048x512_1_1_0_0_n_n none (shapeCast S2048x4096 v0 shapeCasts_S2048x4096_S2048x4096) (shapeCast S512x4096 v2 shapeCasts_S512x4096_S512x4096)
        (constant S2048x512 .f32 0x00000000#32) (ix2 p q)
      + broadcastTo S2048x512 (shapeCast S1x512 v5 shapeCasts_S512_S1x512) broadcasts_S1x512_S2048x512 (ix2 p q) = _
  rw [shapeCast_self, shapeCast_self, product_apply, biasRows_apply]

end Cert.KernelIdeal.Product

end
-- ==== Proof.KernelBlocks.lean ====
/-
  From the grid's blocks to the whole product array.

  The grid has 4 × 24 points; point (I, J) reads rows `2048·I …` of the re-scaled activations (all 4096 features),
  rows `512·J …` of the dequantised weights and bias entries `512·J …`, and writes block (I, J) of the [8192, 12288]
  product array. Entry (p, q) of what it writes is the sum over k of activation (2048·I + p, k) times weight
  (512·J + q, k) plus bias (512·J + q): block (I, J) of ONE whole-array function, the specification's `linearOutFlat`.
  The 96 blocks tile the array (row r lies in block row r / 2048, column n in block column n / 512), so after the run
  the array holds that function.
-/
import proofs.«424631_j6777458393778_3_alg».proof.Proof.Gen.KernelIdeal.Frame
import proofs.«424631_j6777458393778_3_alg».proof.Proof.KernelPrefix
import proofs.«424631_j6777458393778_3_alg».proof.Proof.KernelPayload
import Idealize.ShloMosaic.Lib.Pipeline.Value

set_option maxRecDepth 16384

noncomputable section

open scoped BigOperators

namespace Cert.KernelIdeal.Result

open Cert.KernelIdeal Cert.KernelIdeal.Gen Cert.BlockQuant Cert.KernelIdeal.Quant Cert.KernelIdeal.Product
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- What the product array holds after the run: the layer's result over merged rows, of the launch contents. -/
def outFlat (c : Dev nD) : (⟨S8192x12288, .f32⟩ : BufTy).Contents (Elt Ideal) :=
  linearOutFlat (m ((c : Thread nD τ).loc main_arg0))
    (wgtBf16 (F := Ideal) (m ((c : Thread nD τ).loc main_arg1)) (m ((c : Thread nD τ).loc main_arg2)))
    (m ((c : Thread nD τ).loc main_arg3))

/-- The printed index maps, decided over the 96 points: the activations' block row is the output's, the weights' and
    the bias's block is the output's block column, the feature axis is never cut, and the output's block indices stay
    in their ranges. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 1) = win0_3.index t (1 : Fin 2)
    ∧ win0_3.index t (0 : Fin 2) ≤ 3 ∧ win0_3.index t (1 : Fin 2) ≤ 23 :=
  (by decide +kernel : ∀ t : Fin grid0.N, _)

/-- Every block of the output is some point's. -/
theorem idx_onto : ∀ (q0 : Fin 4) (q1 : Fin 24), ∃ t : Fin cfg0.N, win0_3.index t = ![q0.val, q1.val] :=
  (by decide +kernel : ∀ (q0 : Fin 4) (q1 : Fin 24), ∃ t : Fin grid0.N, win0_3.index t = ![q0.val, q1.val])

/-- The activations' block at point `t`, entry (p, k): the re-scaled activation of merged row `r = 2048·I + p`. -/
theorem act_block (c : Dev nD) (t : Fin cfg0.N) (p : Fin 2048) (k : Fin 4096) (r : Fin 8192)
    (hr : r.val = win0_3.index t (0 : Fin 2) * 2048 + p.val) :
    (iblk m c 0 t : Vec Ideal S2048x4096 .bf16) (ix2 p k)
      = actDeq (m ((c : Thread nD τ).loc main_arg0)) (rowBatch r) (rowPos r) k := by
  obtain ⟨e0, e1, -⟩ := idx_facts t
  show V m c main_v16 (((cfg0.win 0).blk t).view.emb (ix2 p k)) = _
  have he : ((cfg0.win 0).blk t).view.emb (ix2 p k) = ix2 r k := funext fun a => Fin.ext (by
    match a with
    | ⟨0, _⟩ => show win0_0.index t (0 : Fin 2) * 2048 + 1 * p.val = r.val; omega
    | ⟨1, _⟩ => show win0_0.index t (1 : Fin 2) * 4096 + 1 * k.val = k.val; omega)
  rw [he]
  exact (congrFun (V_act m c) (ix2 r k)).trans (actBf16_apply _ r k)

/-- The weights' block at point `t`, entry (q, k): the dequantised weight of output feature `n = 512·J + q`. -/
theorem wgt_block (c : Dev nD) (t : Fin cfg0.N) (q : Fin 512) (k : Fin 4096) (n : Fin 12288)
    (hn : n.val = win0_3.index t (1 : Fin 2) * 512 + q.val) :
    (iblk m c 1 t : Vec Ideal S512x4096 .bf16) (ix2 q k)
      = wgtBf16 (F := Ideal) (m ((c : Thread nD τ).loc main_arg1)) (m ((c : Thread nD τ).loc main_arg2)) (ix2 n k) := by
  obtain ⟨-, -, e2, e3, -⟩ := idx_facts t
  show V m c main_v23 (((cfg0.win 1).blk t).view.emb (ix2 q k)) = _
  have he : ((cfg0.win 1).blk t).view.emb (ix2 q k) = ix2 n k := funext fun a => Fin.ext (by
    match a with
    | ⟨0, _⟩ => show win0_1.index t (0 : Fin 2) * 512 + 1 * q.val = n.val; omega
    | ⟨1, _⟩ => show win0_1.index t (1 : Fin 2) * 4096 + 1 * k.val = k.val; omega)
  rw [he]
  exact congrFun (V_wgt m c) (ix2 n k)

/-- The bias's block at point `t`, entry q: the bias of output feature `n = 512·J + q`. -/
theorem bias_block (c : Dev nD) (t : Fin cfg0.N) (q : Fin 512) (n : Fin 12288)
    (hn : n.val = win0_3.index t (1 : Fin 2) * 512 + q.val) :
    (iblk m c 2 t : Vec Ideal S512 .f32) (ix1 q) = m ((c : Thread nD τ).loc main_arg3) (ix1 n) := by
  obtain ⟨-, -, -, -, e4, -⟩ := idx_facts t
  show V m c main_arg3 (((cfg0.win 2).blk t).view.emb (ix1 q)) = _
  have he : ((cfg0.win 2).blk t).view.emb (ix1 q) = ix1 n := funext fun a => Fin.ext (by
    match a with
    | ⟨0, _⟩ => show win0_2.index t (0 : Fin 1) * 512 + 1 * q.val = n.val; omega)
  rw [he]
  exact congrFun (V_main_arg3 m c) (ix1 n)

/-- WHAT POINT `t` WRITES BACK is block `t` of the layer's result over merged rows. -/
theorem flushed_eq (c : Dev nD) (t : Fin cfg0.N) :
    (dats m 0 c).flushed 3 t = ((cfg0.win 3).blk t).view.read (Elt Ideal) (outFlat m c) := by
  show (cfg0.win 3).cut (grid0.coords t) ((dats m 0 c).after 3 t) = _
  rw [after0_3]
  unfold out0_3
  rw [View.canon_unit_zero zero2]
  simp only [View.ld_unit_zero (S := S2048x4096) zero2, View.ld_unit_zero (S := S512x4096) zero2, View.ld_unit_zero (S := S512) zero1]
  obtain ⟨-, -, -, -, -, e5, e6⟩ := idx_facts t
  funext y
  obtain ⟨p, q, rfl⟩ : ∃ (p : Fin 2048) (q : Fin 512), y = ix2 p q := ⟨y 0, y 1, eq_ix2 y⟩
  have hp := p.isLt; have hq := q.isLt
  show k0_pay1 (F := Ideal) (iblk m c 0 t) (iblk m c 1 t) (iblk m c 2 t) (ix2 p q)
    = outFlat m c (((cfg0.win 3).blk t).view.emb (ix2 p q))
  have he : ((cfg0.win 3).blk t).view.emb (ix2 p q)
      = ix2 (⟨win0_3.index t (0 : Fin 2) * 2048 + p.val, by omega⟩ : Fin 8192) (⟨win0_3.index t (1 : Fin 2) * 512 + q.val, by omega⟩ : Fin 12288) :=
    funext fun a => Fin.ext (by
      match a with
      | ⟨0, _⟩ => show win0_3.index t (0 : Fin 2) * 2048 + 1 * p.val = win0_3.index t (0 : Fin 2) * 2048 + p.val; omega
      | ⟨1, _⟩ => show win0_3.index t (1 : Fin 2) * 512 + 1 * q.val = win0_3.index t (1 : Fin 2) * 512 + q.val; omega)
  rw [he]
  refine (payload_apply (iblk m c 0 t) (iblk m c 1 t) (iblk m c 2 t) p q).trans ?_
  rw [bias_block m c t q (⟨win0_3.index t (1 : Fin 2) * 512 + q.val, by omega⟩ : Fin 12288) rfl]
  refine congrArg (· + _) (Finset.sum_congr rfl fun k _ => ?_)
  rw [act_block m c t p k (⟨win0_3.index t (0 : Fin 2) * 2048 + p.val, by omega⟩ : Fin 8192) rfl,
    wgt_block m c t q k (⟨win0_3.index t (1 : Fin 2) * 512 + q.val, by omega⟩ : Fin 12288) rfl]

/-- An index of the array is in point `t`'s block iff each coordinate is in the block's range on its axis. -/
theorem mem_blk (t : Fin cfg0.N) (i : S8192x12288.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v24).slice (win0_3.rect t)).set ↔ _
  rw [View.set_slice_whole, Rect.mem_set_unit]
  exact Iff.rfl

/-- The blocks tile the array: (r, n) is in the block of the point whose block index is (r / 2048, n / 512). -/
theorem cover (i : S8192x12288.Idx) :
    ∃ t : Fin cfg0.N, (cfg0.win 3).flush t = true ∧ i ∈ ((cfg0.win 3).blk t).view.set := by
  have hi0 : (i 0).val < 8192 := (i 0).isLt
  have hi1 : (i 1).val < 12288 := (i 1).isLt
  obtain ⟨t, ht⟩ := idx_onto ⟨(i 0).val / 2048, by omega⟩ ⟨(i 1).val / 512, by omega⟩
  have q0 : win0_3.index t (0 : Fin 2) = (i 0).val / 2048 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 512 ≤ (i 1).val ∧ (i 1).val < win0_3.index t (1 : Fin 2) * 512 + 512; omega

/-- THE PRODUCT ARRAY after the run is the layer's result over merged rows. -/
theorem final (c : Dev nD) : (dats m 0 c).arrAt 3 cfg0.N = outFlat m c :=
  (dats m 0 c).arrAt_eq_of_cover 3 (outFlat m c) (fun t _ => flushed_eq m c t) cover

end Cert.KernelIdeal.Result

end
-- ==== Proof.KernelRun.lean ====
/-
  The kernel's run with its result named.

  After the region one host line views the [8192, 12288] product array as [4, 2048, 12288]: entry (b, s, n) is the
  entry of merged row `2048·b + s`, column n, which has the same row-major position. So the program's result is the
  specification's `linearOut` of the launch contents, and the four arguments end as launched.
-/
import proofs.«424631_j6777458393778_3_alg».proof.Proof.KernelBlocks
import Idealize.ShloMosaic.Lib.StableHlo.Run

noncomputable section

namespace Cert.KernelIdeal.Result

open Cert.KernelIdeal Cert.KernelIdeal.Gen Cert.BlockQuant Cert.KernelIdeal.Quant
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- The layer's result as the kernel computes it, of the launch contents. -/
def out (c : Dev nD) : (⟨S4x2048x12288, .f32⟩ : BufTy).Contents (Elt Ideal) :=
  linearOut (m ((c.tc : Thread nD τ).loc main_arg0))
    (wgtBf16 (F := Ideal) (m ((c.tc : Thread nD τ).loc main_arg1)) (m ((c.tc : Thread nD τ).loc main_arg2)))
    (m ((c.tc : Thread nD τ).loc main_arg3))

/-- The host line after the region leaves the result buffer at `out`. -/
theorem tail_eq (c : Dev nD) :
    Pipeline.afterTail₀ cfgs (dats m) 0 (V0 m) [hostOps1] c main_v25 = out m c := by
  unfold Pipeline.afterTail₀
  show StableHlo.after hostOps1 _ (Proc.devRef .tc main_v25) = _
  after_results
  have hw : Pipeline.withArrays (cfgs 0).spec c (V0 m c) (fun w => (dats m 0 c).arrAt w (cfgs 0).N) (Proc.devRef .tc main_v24)
      = outFlat m c :=
    (Pipeline.withArrays_arr spec0 launch0.win.arr_inj c _ _ 3).trans (final m c)
  rw [hw]
  funext i
  obtain ⟨b, s, n, rfl⟩ : ∃ (b : Fin 4) (s : Fin 2048) (n : Fin 12288), i = ix3 b s n := ⟨i 0, i 1, i 2, eq_ix3 i⟩
  have hb := b.isLt; have hs := s.isLt
  show shapeCast S4x2048x12288 (outFlat m c) shapeCasts_S8192x12288_S4x2048x12288 (ix3 b s n) = _
  rw [shapeCast_apply _ shapeCasts_S8192x12288_S4x2048x12288 (ix3 b s n) (ix2 (⟨b.val * 2048 + s.val, by omega⟩ : Fin 8192) n)
    (by rw [Shape.rowMajor_val_two, Shape.rowMajor_val_three]
        show (b.val * 2048 + s.val) * 12288 + n.val = (b.val * 2048 + s.val) * 12288 + n.val; rfl)]
  exact linearOutFlat_merged _ _ _ b s n _ rfl

/-- THE RUN: every weakly fair execution terminates with the result at `out` and the arguments as launched. -/
theorem run : θ_run defs (onTc (τ := τ) (main (F := Ideal))) ⟨m, fun _ => 0, ρ⟩ (fun r => ∀ c : Dev nD,
      r.2.mem ((c.tc : Thread nD τ).loc main_v25) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v25 (Pipeline.mem_restRefs_of main_v25 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c)))⟩)
    (run_main m ρ)

end Cert.KernelIdeal.Result

end
-- ==== Proof.lean ====
/-
  A linear layer over block-quantised activations: the kernel against its jnp reference, over the extended reals.

  Both programs re-scale the activations block by block (32 blocks of 128 features per row; a block's scale is
  `max (absmax / 127) 1e-8`; an entry becomes `clamp (round (entry / scale)) · scale`), dequantise the integer
  weights by their 128 × 128 block scales, contract the 4096 features and add the bias. They differ only in layout
  and in number formats. The reference keeps batch and position apart ([4, 2048, …]) and contracts with one host
  `dot_general`; the kernel merges them into 8192 rows, narrows both operands to bf16 (the identity at the ideal
  values), computes the product block by block on a 4 × 24 grid — each block contracting ALL 4096 features at once
  into a zero accumulator, so no sum is split or re-ordered — and views the [8192, 12288] result as [4, 2048, 12288].
  Merged row `2048·b + s` is (b, s) under every one of these views (they keep row-major positions), so entry by
  entry both results are `Σ_k actDeq (b, s, k) · W (n, k) + bias n`: the specification's `linearOut`
  (Proof/Spec.lean). No law of the extended reals beyond that reading is used, and the precondition (finite inputs)
  is never opened.

  The modules: Spec (the functions), RefActivations and RefResult (the reference read at an index, over its
  generated run and read-at-an-index modules), KernelActivations and KernelPrefix (the kernel's host lines before
  the region), KernelWeights (its weights are the reference's), KernelPayload (the body's stored value at an entry),
  KernelBlocks (from the grid's blocks to the whole product array), KernelRun (the host line after the region, and
  the run). The three frames: the two kernels' are generated whole; the reference's is its generated run with the
  result dropped. The idealization rewrote nothing, so `preserves` is `True`.
-/
import proofs.«424631_j6777458393778_3_alg».proof.Defs
import proofs.«424631_j6777458393778_3_alg».proof.Proof.Gen.Kernel
import proofs.«424631_j6777458393778_3_alg».proof.Proof.Gen.Kernel.Skeleton
import proofs.«424631_j6777458393778_3_alg».proof.Proof.Gen.Kernel.Launch
import proofs.«424631_j6777458393778_3_alg».proof.Proof.Gen.Kernel.Points
import proofs.«424631_j6777458393778_3_alg».proof.Proof.Gen.Kernel.Frame
import proofs.«424631_j6777458393778_3_alg».proof.Proof.Gen.KernelIdeal
import proofs.«424631_j6777458393778_3_alg».proof.Proof.Gen.KernelIdeal.Skeleton
import proofs.«424631_j6777458393778_3_alg».proof.Proof.Gen.KernelIdeal.Launch
import proofs.«424631_j6777458393778_3_alg».proof.Proof.Gen.KernelIdeal.Points
import proofs.«424631_j6777458393778_3_alg».proof.Proof.Gen.KernelIdeal.Frame
import proofs.«424631_j6777458393778_3_alg».proof.Proof.Gen.ReferenceIdeal
import proofs.«424631_j6777458393778_3_alg».proof.Proof.Gen.Pre_finite_inputs
import proofs.«424631_j6777458393778_3_alg».proof.Proof.Gen.ReferenceIdeal.Run
import proofs.«424631_j6777458393778_3_alg».proof.Proof.Gen.ReferenceIdeal.Read
import proofs.«424631_j6777458393778_3_alg».proof.Proof.RefResult
import proofs.«424631_j6777458393778_3_alg».proof.Proof.KernelWeights
import proofs.«424631_j6777458393778_3_alg».proof.Proof.KernelRun
import Idealize.ShloMosaic.Adequacy
import Idealize.ShloMosaic.Init

noncomputable section

namespace Cert.Proof

open Idealize.ShloMosaic Idealize.SL.Sem

/-- Every execution of the word-level kernel terminates and leaves its arguments unchanged. -/
theorem frame_kernel : Cert.frame_Kernel := fun m ρ _ => Cert.Kernel.Gen.frame m ρ

/-- The same for the idealized kernel. -/
theorem frame_kernelIdeal : Cert.frame_KernelIdeal := fun m ρ _ => Cert.KernelIdeal.Gen.frame m ρ

/-- The reference is a host program: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the result at `linearOut` of the
    arguments: the kernel by its run read block by block, the reference by its run read stage by stage; the two
    dequantised weight arrays are one array. -/
theorem algebraic : Cert.algebraic_KernelIdeal_ReferenceIdeal := by
  intro m ρ m' ρ' _ hagree
  refine ⟨fun c => Cert.KernelIdeal.Result.out m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  refine (Cert.ReferenceIdeal.Read.val_main_v25_eq _ _ _ _).trans ((Cert.ReferenceIdeal.Quant.result_eq _ _ _ _).trans ?_)
  exact congrArg (fun W => Cert.BlockQuant.linearOut _ W _) (funext fun i => (Cert.KernelIdeal.Quant.wgtBf16_eq _ _ i).symm)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
